-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192x16 : Shape := ⟨2, ![8192, 16]⟩
abbrev S16 : Shape := ⟨1, ![16]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1 .f32) (main_arg1 : FVec F S8192x16 .f32) (main_arg2 : FVec F S16 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8192x1 : Shape := ⟨2, ![8192, 1]⟩
abbrev S8192x16 : Shape := ⟨2, ![8192, 16]⟩
abbrev S16 : Shape := ⟨1, ![16]⟩
abbrev S1x16 : Shape := ⟨2, ![1, 16]⟩
abbrev S_ : Shape := ⟨0, ![]⟩
abbrev S8192 : Shape := ⟨1, ![8192]⟩
abbrev S1x8192 : Shape := ⟨2, ![1, 8192]⟩
abbrev S1x1 : Shape := ⟨2, ![1, 1]⟩
abbrev S128x1 : Shape := ⟨2, ![128, 1]⟩
abbrev S128x8192 : Shape := ⟨2, ![128, 8192]⟩
abbrev S128 : Shape := ⟨1, ![128]⟩
abbrev S1 : Shape := ⟨1, ![1]⟩

abbrev nBuf : Space → Nat
  | .hbm => 17
  | .vmem => 9
  | .smem => 0
  | _ => 0

abbrev bufTy : (tb : Table) → Fin (tcTables nBuf tb) → BufTy
  | .hbm, ⟨0, _⟩ => ⟨S8192x1, .f32⟩
  | .hbm, ⟨1, _⟩ => ⟨S8192x16, .f32⟩
  | .hbm, ⟨2, _⟩ => ⟨S16, .f32⟩
  | .hbm, ⟨3, _⟩ => ⟨S1x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S1x8192, .f32⟩
  | .hbm, ⟨15, _⟩ => ⟨S1x1, .f32⟩
  | .hbm, ⟨16, _⟩ => ⟨S1, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S1x8192, .f32⟩
  | .local _ .vmem, ⟨5, _⟩ => ⟨S1x8192, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v52 : BitVec 1 := Scalar.cmpi .eq arg0 c63_i32
  let v53 : BitVec 32 := Scalar.extui v52
  let c0_i32_22 : BitVec 32 := 0#32
  let v54 : BitVec 1 := Scalar.cmpi .ne v53 c0_i32_22
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  shapeCasts_S8192x1_S8192 : S8192x1.ShapeCasts S8192
  shapeCasts_S8192_S8192x1 : S8192.ShapeCasts S8192x1
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  natLt_1_32 : 1 < 32
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v7) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1 : Shape := ⟨2, ![8192, 1]⟩
abbrev S8192x16 : Shape := ⟨2, ![8192, 16]⟩
abbrev S16 : Shape := ⟨1, ![16]⟩
abbrev S1x16 : Shape := ⟨2, ![1, 16]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S1 : Shape := ⟨1, ![1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x16, .f32⟩
  | .hbm, ⟨2, _⟩ => ⟨S16, .f32⟩
  | .hbm, ⟨3, _⟩ => ⟨S1x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .i1⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S8192x8192, .i1⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S8192x8192, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_call1_cst : Ref sig .tc := ⟨.hbm, 32, rfl⟩
abbrev main_call1_v0 : Ref sig .tc := ⟨.hbm, 33, rfl⟩
abbrev main_v24 : Ref sig .tc := ⟨.hbm, 34, rfl⟩
abbrev main_cst_0 : Ref sig .tc := ⟨.hbm, 35, rfl⟩
abbrev main_call2_v0 : Ref sig .tc := ⟨.hbm, 36, rfl⟩
abbrev main_call2_v1 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  natLt_1_32 : 1 < 32
  bcast_S_S1 : S_.BroadcastsInDim S1 (![] : Fin 0 → Fin S1.rank)

variable [Facts₀]

class Facts : Prop extends Facts₀ where

variable [Facts]
-- ==== Proof.KPieces.lean ====
/-
  What each control case of the kernel body leaves in the two carried scratch cells and, at the last grid point, in the
  output block, as the body's payloads of the point's input blocks and of what the cells held before: the first point
  resets both cells to the zero payload and adds the point's partial sums; every later point adds its partial sums to
  what the point before left; the last point also stores the quotient payload of the two updated cells.
-/
import proofs.«143509_j40269613367603_1_alg».proof.Proof.Gen.KernelIdeal.Frame
import Idealize.ShloMosaic.Lib.Pipeline.Value
import Idealize.ShloMosaic.Lib.Tactic
import Idealize.ShloMosaic.Lib.ValueIdx

noncomputable section

namespace Cert.KernelIdeal.RankValue

open Idealize.ShloMosaic Idealize.ShloMosaic.TcCoe Idealize.SL.Sem Idealize.ShloMosaic.ValueIdx
open Cert.KernelIdeal Cert.KernelIdeal.Gen

variable {F : FTy → Type} [FloatOps F]

theorem hz : (![0, 0] : Fin 2 → Nat) = fun _ => 0 := funext fun a => by fin_cases a <;> rfl

/-- Case A: the loss cell ends at its previous contents plus the point's partial loss sum (the previous contents being the zero the reset stored). -/
theorem sout_A_0 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S128x1 .f32) (x2 x3 : Vec F S1x8192 .f32) :
    sout0_A_0 c i arg1 harg1 arg2 harg2 arg3 harg3 arg4 harg4 arg5 harg5 arg6 harg6 arg7 harg7 hc0 hc1 x0 x1 x2 x3
      = k0_pay1 (k0_pay7 i x0 x1 x2 x3) (k0_pay4 (F := F)) := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case A: the count cell ends at its previous contents plus the point's partial count (the previous contents being the zero the reset stored). -/
theorem sout_A_1 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 : Vec F S128x1 .f32) (x2 x3 : Vec F S1x8192 .f32) :
    sout0_A_1 c i arg1 harg1 arg2 harg2 arg3 harg3 arg4 harg4 arg5 harg5 arg6 harg6 arg7 harg7 hc0 hc1 x0 x1 x2 x3
      = k0_pay2 (k0_pay8 i x1 x3) (k0_pay5 (F := F)) := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case B: the loss cell ends at its previous contents plus the point's partial loss sum. -/
theorem sout_B_0 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S128x1 .f32) (x2 x3 : Vec F S1x8192 .f32) (xs0 xs1 : Vec F S1x1 .f32) :
    sout0_B_0 c i arg1 harg1 arg2 harg2 arg3 harg3 arg4 harg4 arg5 harg5 arg6 harg6 arg7 harg7 hc0 hc1 x0 x1 x2 x3 xs0 xs1
      = k0_pay1 (k0_pay7 i x0 x1 x2 x3) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case B: the count cell ends at its previous contents plus the point's partial count. -/
theorem sout_B_1 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 : Vec F S128x1 .f32) (x2 x3 : Vec F S1x8192 .f32) (xs0 xs1 : Vec F S1x1 .f32) :
    sout0_B_1 c i arg1 harg1 arg2 harg2 arg3 harg3 arg4 harg4 arg5 harg5 arg6 harg6 arg7 harg7 hc0 hc1 x0 x1 x2 x3 xs0 xs1
      = k0_pay2 (k0_pay8 i x1 x3) xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case C: the loss cell ends at its previous contents plus the point's partial loss sum. -/
theorem sout_C_0 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S128x1 .f32) (x2 x3 : Vec F S1x8192 .f32) (xs0 xs1 : Vec F S1x1 .f32) :
    sout0_C_0 c i arg1 harg1 arg2 harg2 arg3 harg3 arg4 harg4 arg5 harg5 arg6 harg6 arg7 harg7 hc0 hc1 x0 x1 x2 x3 xs0 xs1
      = k0_pay1 (k0_pay7 i x0 x1 x2 x3) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case C: the count cell ends at its previous contents plus the point's partial count. -/
theorem sout_C_1 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S128x1 .f32) (x2 x3 : Vec F S1x8192 .f32) (xs0 xs1 : Vec F S1x1 .f32) :
    sout0_C_1 c i arg1 harg1 arg2 harg2 arg3 harg3 arg4 harg4 arg5 harg5 arg6 harg6 arg7 harg7 hc0 hc1 x0 x1 x2 x3 xs0 xs1
      = k0_pay2 (k0_pay8 i x1 x3) xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

/-- Case C (the last point): the output block is the quotient payload of the two updated cells. -/
theorem out_C_4 (c : Dev nD) (i : grid0.Coords) (arg1 : Memref sig .tc .vmem S128x1 .f32) (harg1 : arg1.IsWhole) (arg2 : Memref sig .tc .vmem S128x1 .f32) (harg2 : arg2.IsWhole) (arg3 : Memref sig .tc .vmem S1x8192 .f32) (harg3 : arg3.IsWhole) (arg4 : Memref sig .tc .vmem S1x8192 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 : Vec F S128x1 .f32) (x2 x3 : Vec F S1x8192 .f32) (xs0 xs1 : Vec F S1x1 .f32) :
    out0_C_4 c i arg1 harg1 arg2 harg2 arg3 harg3 arg4 harg4 arg5 harg5 arg6 harg6 arg7 harg7 hc0 hc1 x0 x1 x2 x3 xs0 xs1
      = k0_pay3 (k0_pay1 (k0_pay7 i x0 x1 x2 x3) xs0) (k0_pay2 (k0_pay8 i x1 x3) xs1) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S128x1) hz, View.ld_unit_zero (S := S1x8192) hz, View.ld_unit_zero (S := S1x1) hz, View.readCov_unit_zero (S := S1x1) _ hz]

end Cert.KernelIdeal.RankValue

end
-- ==== Proof.Spec.lean ====
/-
  The pairwise ranking loss as ONE function of the energies `e` and the distances `d` (both indexed by the 8192 samples),
  over the extended reals:

      loss e d = (∑ i, ∑ j, [d i < d j ∧ i ≠ j] · max (e i - e j + 1) 0) / max (#{(i, j) : d i < d j ∧ i ≠ j}) 1.

  The mask is kept as a bit (`mbit`), the selected term by the bit (`term`), the count as the sum of the bits read as
  integers (`ind`). The sample axis splits into 64 row tiles of 128 (`row`), and the two sums split with it
  (`lossSum_eq_parts`, `count_eq_parts`): addition of extended reals is commutative and associative, so no finiteness is
  asked. A sum of 0/1 words that stays inside the word is the sum of their values (`sitofp_sum_bits`).
-/
import Idealize.ShloMosaic.PureOps.Ideal
import Idealize.ShloMosaic.PureOps.Ideal.Laws
import Idealize.ShloMosaic.Lib.ValueIdx
import Idealize.ShloMosaic.Lib.WordSum

noncomputable section

namespace Cert.RankSpec

open Idealize.ShloMosaic

/-- The literals `1.0` and `0.0` as extended reals. -/
abbrev one : EReal := Ideal.ofBits .f32 0x3F800000#32
abbrev zero : EReal := Ideal.ofBits .f32 0x00000000#32

/-- Off the diagonal, as a bit. -/
def offd (i j : Fin 8192) : BitVec 1 := BitVec.ofBool (decide (i ≠ j))

/-- The pair mask as a bit: `d i < d j` and `i ≠ j`. -/
def mbit (d : Fin 8192 → EReal) (i j : Fin 8192) : BitVec 1 := IntOp.andi (Ideal.cmp .olt (d i) (d j)) (offd i j)

/-- The hinge `max (e i - e j + 1) 0`. -/
def hinge (e : Fin 8192 → EReal) (i j : Fin 8192) : EReal := max (e i - e j + one) zero

/-- One pair's contribution to the loss sum. -/
def term (e d : Fin 8192 → EReal) (i j : Fin 8192) : EReal := Scalar.select (mbit d i j) (hinge e i j) zero

/-- One pair's contribution to the count: the mask bit widened to a word, read as an integer. -/
def ind (d : Fin 8192 → EReal) (i j : Fin 8192) : EReal := ((((mbit d i j).setWidth 32).toInt : ℝ) : EReal)

def lossSum (e d : Fin 8192 → EReal) : EReal := ∑ i : Fin 8192, ∑ j : Fin 8192, term e d i j
def count (d : Fin 8192 → EReal) : EReal := ∑ i : Fin 8192, ∑ j : Fin 8192, ind d i j

/-- The loss. -/
def loss (e d : Fin 8192 → EReal) : EReal := Ideal.div (lossSum e d) (max (count d) one)

/-- Row `r` of row tile `t`: sample `128 t + r`. -/
def row (t : Fin 64) (r : Fin 128) : Fin 8192 := ⟨128 * t.val + r.val, by have := t.isLt; have := r.isLt; omega⟩

/-- Row tile `t`'s share of the loss sum and of the count. -/
def partS (e d : Fin 8192 → EReal) (t : Fin 64) : EReal := ∑ r : Fin 128, ∑ j : Fin 8192, term e d (row t r) j
def partC (d : Fin 8192 → EReal) (t : Fin 64) : EReal := ∑ r : Fin 128, ∑ j : Fin 8192, ind d (row t r) j

/-- A sum over the samples is the sum over the row tiles of the sums over their rows. -/
theorem sum_rows {M : Type*} [AddCommMonoid M] (f : Fin 8192 → M) :
    ∑ i : Fin 8192, f i = ∑ t : Fin 64, ∑ r : Fin 128, f (row t r) := by
  calc ∑ i : Fin 8192, f i
      = ∑ x : Fin 64 × Fin 128, f ((finProdFinEquiv : Fin 64 × Fin 128 ≃ Fin (64 * 128)) x) :=
        (Equiv.sum_comp (finProdFinEquiv : Fin 64 × Fin 128 ≃ Fin (64 * 128)) f).symm
    _ = ∑ x : Fin 64 × Fin 128, f (row x.1 x.2) := by
        refine Finset.sum_congr rfl (fun x _ => ?_)
        congr 1
        apply Fin.ext
        rw [finProdFinEquiv_apply_val]
        simp only [row]
        omega
    _ = ∑ t : Fin 64, ∑ r : Fin 128, f (row t r) := Fintype.sum_prod_type _

theorem lossSum_eq_parts (e d : Fin 8192 → EReal) : lossSum e d = ∑ t : Fin 64, partS e d t := by
  unfold lossSum partS; exact sum_rows _

theorem count_eq_parts (d : Fin 8192 → EReal) : count d = ∑ t : Fin 64, partC d t := by
  unfold count partC; exact sum_rows _

/-- The running sum over the row tiles up to and including tile `n`. -/
def upto (p : Fin 64 → EReal) (n : ℕ) : EReal := ∑ t : Fin 64, if t.val ≤ n then p t else 0

theorem upto_zero (p : Fin 64 → EReal) : upto p 0 = p 0 := by
  unfold upto
  rw [Finset.sum_eq_single (0 : Fin 64)]
  · simp
  · intro t _ ht
    have h0 : ¬ t.val ≤ 0 := by
      intro h
      apply ht
      apply Fin.ext
      simp only [Fin.val_zero]
      omega
    rw [if_neg h0]
  · intro h
    exact absurd (Finset.mem_univ _) h

theorem upto_succ (p : Fin 64 → EReal) (n : ℕ) (h : n + 1 < 64) : upto p (n + 1) = upto p n + p ⟨n + 1, h⟩ := by
  unfold upto
  have hsplit : ∀ t : Fin 64, (if t.val ≤ n + 1 then p t else 0)
      = (if t.val ≤ n then p t else 0) + (if t = ⟨n + 1, h⟩ then p t else 0) := by
    intro t
    by_cases h1 : t.val ≤ n
    · have h2 : t.val ≤ n + 1 := by omega
      have h3 : t ≠ ⟨n + 1, h⟩ := by
        intro e
        rw [e] at h1
        simp at h1
      rw [if_pos h1, if_pos h2, if_neg h3, add_zero]
    · by_cases h2 : t = ⟨n + 1, h⟩
      · subst h2
        simp
      · have h3 : ¬ t.val ≤ n + 1 := by
          intro h4
          apply h2
          apply Fin.ext
          simp only
          omega
        rw [if_neg h1, if_neg h2, if_neg h3, add_zero]
  rw [Finset.sum_congr rfl (fun t _ => hsplit t), Finset.sum_add_distrib, Finset.sum_ite_eq']
  simp

theorem upto_last (p : Fin 64 → EReal) : upto p 63 = ∑ t : Fin 64, p t := by
  unfold upto
  refine Finset.sum_congr rfl (fun t _ => ?_)
  have := t.isLt
  rw [if_pos (by omega)]

/-- The embedding of the reals in the extended reals commutes with finite sums. -/
private theorem coe_real_sum {ι : Type*} (s : Finset ι) (g : ι → ℝ) :
    ((∑ k ∈ s, g k : ℝ) : EReal) = ∑ k ∈ s, (g k : EReal) := by
  induction s using Finset.cons_induction with
  | empty => simp
  | cons a s ha ih => rw [Finset.sum_cons, Finset.sum_cons, EReal.coe_add, ih]

/-- Sample indices are below `2 ^ 32`, so they are distinct as 32-bit words exactly when they are distinct. -/
private theorem ofNat_word_inj (i j : Fin 8192) : BitVec.ofNat 32 i.val = BitVec.ofNat 32 j.val ↔ i = j := by
  constructor
  · intro h
    have h' := congrArg BitVec.toNat h
    simp only [BitVec.toNat_ofNat] at h'
    have := i.isLt
    have := j.isLt
    apply Fin.ext
    omega
  · intro h
    rw [h]

/-- A sum of 0/1 words, fewer than `2 ^ 31` of them, read as a signed integer, is the sum of their values. -/
theorem sitofp_sum_bits {ι : Type*} [Fintype ι] (b : ι → BitVec 1) (hcard : Fintype.card ι < 2 ^ 31) :
    ((((∑ k, (b k).setWidth 32 : BitVec 32).toInt : ℝ)) : EReal) = ∑ k, (((((b k).setWidth 32).toInt : ℝ)) : EReal) := by
  have hle : ∀ k, ((b k).setWidth 32).toNat ≤ 1 := by
    intro k
    have := (b k).isLt
    rw [BitVec.toNat_setWidth]
    have : (b k).toNat % 2 ^ 32 ≤ (b k).toNat := Nat.mod_le _ _
    omega
  have hsum : ∑ k, ((b k).setWidth 32).toNat ≤ Fintype.card ι := by
    calc ∑ k, ((b k).setWidth 32).toNat ≤ ∑ _k : ι, 1 := Finset.sum_le_sum (fun k _ => hle k)
      _ = Fintype.card ι := by simp
  have hN : (∑ k, (b k).setWidth 32 : BitVec 32).toNat = ∑ k, ((b k).setWidth 32).toNat :=
    WordSum.toNat_sum Finset.univ _ (by omega)
  have hI : (∑ k, (b k).setWidth 32 : BitVec 32).toInt = ((∑ k, ((b k).setWidth 32).toNat : ℕ) : ℤ) := by
    rw [BitVec.toInt_eq_toNat_of_lt (by rw [hN]; omega), hN]
  have hk : ∀ k, ((b k).setWidth 32).toInt = ((((b k).setWidth 32).toNat : ℕ) : ℤ) := fun k =>
    BitVec.toInt_eq_toNat_of_lt (by have := hle k; omega)
  have hR : ∑ k, (((((b k).setWidth 32).toInt : ℝ)) : EReal)
      = ∑ k, ((((((b k).setWidth 32).toNat : ℕ) : ℝ)) : EReal) :=
    Finset.sum_congr rfl (fun k _ => by rw [hk k]; push_cast; rfl)
  rw [hI, hR]
  push_cast
  exact coe_real_sum _ _

/-- The kernel's word test: row `128 t + r` against column `j`, both below 8192, as 32-bit words. -/
theorem offd_words_ne (t : Fin 64) (r : Fin 128) (j : Fin 8192) :
    IntOp.cmpi .ne (IntOp.addi (IntOp.muli (BitVec.ofNat 32 t.val) 128#32) (BitVec.ofNat 32 r.val)) (BitVec.ofNat 32 j.val)
      = offd (row t r) j := by
  have hx : IntOp.addi (IntOp.muli (BitVec.ofNat 32 t.val) 128#32) (BitVec.ofNat 32 r.val)
      = BitVec.ofNat 32 (row t r).val := by
    apply BitVec.eq_of_toNat_eq
    have := t.isLt
    have := r.isLt
    simp only [IntOp.addi, IntOp.muli, row, BitVec.toNat_add, BitVec.toNat_mul, BitVec.toNat_ofNat]
    omega
  rw [hx]
  simp only [IntOp.cmpi, offd]
  by_cases hij : row t r = j
  · rw [hij]
    simp
  · have hw : BitVec.ofNat 32 (row t r).val ≠ BitVec.ofNat 32 j.val := fun e => hij ((ofNat_word_inj _ _).mp e)
    rw [bne_iff_ne.mpr hw, decide_eq_true (p := row t r ≠ j) hij]

/-- The reference's word test: the complement of `i + 0 = j` on 32-bit words. -/
theorem offd_words_not_eq (i j : Fin 8192) :
    ~~~(IntOp.cmpi .eq (IntOp.addi (BitVec.ofNat 32 i.val) 0#32) (BitVec.ofNat 32 j.val)) = offd i j := by
  have hx : IntOp.addi (BitVec.ofNat 32 i.val) 0#32 = BitVec.ofNat 32 i.val := by
    unfold IntOp.addi
    exact BitVec.add_zero _
  rw [hx]
  simp only [IntOp.cmpi, offd]
  by_cases hij : i = j
  · rw [hij]
    simp
  · have hw : BitVec.ofNat 32 i.val ≠ BitVec.ofNat 32 j.val := fun e => hij ((ofNat_word_inj _ _).mp e)
    rw [beq_eq_false_iff_ne.mpr hw, decide_eq_true (p := i ≠ j) hij]
    rfl

end Cert.RankSpec

end
-- ==== Proof.KPay.lean ====
/-
  The body's payloads read at the ideal values: the zero payloads are 0; the update payloads add to a cell; at row tile
  `t`, with the column blocks holding rows `128 t + r` of the energies and distances and the row blocks holding all of
  them, the partial loss sum is `∑ r, ∑ j` of the selected hinge and the partial count `∑ r, ∑ j` of the mask bit; the
  quotient payload divides by the larger of the count and one.
-/
import proofs.«143509_j40269613367603_1_alg».proof.Proof.Gen.KernelIdeal.Skeleton
import proofs.«143509_j40269613367603_1_alg».proof.Proof.Gen.KernelIdeal.Launch
import proofs.«143509_j40269613367603_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RankPay

open Idealize.ShloMosaic Idealize.ShloMosaic.TcCoe Idealize.SL.Sem Idealize.ShloMosaic.ValueIdx
open Cert.KernelIdeal Cert.KernelIdeal.Gen

/-- A grid point as a row tile. -/
abbrev tile (t : Fin grid0.N) : Fin 64 := Fin.cast N_0 t

theorem pay4_apply (y : S1x1.Idx) : k0_pay4 (F := Ideal) y = 0 := by
  unfold k0_pay4
  rw [shapeCast_self]
  exact Ideal.ofBits_zero_f32

theorem pay5_apply (y : S1x1.Idx) : k0_pay5 (F := Ideal) y = 0 := by
  unfold k0_pay5
  rw [shapeCast_self]
  exact Ideal.ofBits_zero_f32

theorem pay1_apply (v : FVec Ideal S1x1 .f32) (a : Vec Ideal S1x1 .f32) (y : S1x1.Idx) :
    k0_pay1 (F := Ideal) v a y = a y + v y := by
  unfold k0_pay1
  rw [shapeCast_self]
  rfl

theorem pay3_apply (a b : Vec Ideal S1x1 .f32) (y : S1x1.Idx) :
    k0_pay3 (F := Ideal) a b y = Ideal.div (a y) (max (b y) RankSpec.one) := by
  rfl

/-- An `[a]` array cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[128, 1]` column broadcast to `[128, 8192]` reads, at `(p, c)`, the column at `p`. -/
private theorem broadcastTo_col_apply {α : Type} (v : S128x1.Idx → α) (h : S128x1.Broadcasts S128x8192)
    (p : Fin 128) (c : Fin 8192) : broadcastTo S128x8192 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A grid point's one coordinate is the point's number. -/
private theorem coords_val : ∀ t : Fin grid0.N, ((grid0.coords t) 0).val = t.val := by decide +kernel

/-- The index over row `r` with column `k` inserted is `(r, k)`. -/
private theorem lift_row (h : S128x8192.Reduces [1] S128) (r : Fin 128) (k : Fin 8192) : h.lift (ix1 r) k = ix2 r k := by
  funext c
  refine Fin.ext ?_
  match c with
  | ⟨0, _⟩ => rfl
  | ⟨1, _⟩ => rfl

/-- The index over the one cell `u` with row `k` inserted is `(k, u)`. -/
private theorem lift_col (h : S128x1.Reduces [0] S1) (u : Fin 1) (k : Fin 128) : h.lift (ix1 u) k = ix2 k u := by
  funext c
  refine Fin.ext ?_
  match c with
  | ⟨0, _⟩ => rfl
  | ⟨1, _⟩ => rfl

/-- A sum along the columns read at row `r`. -/
private theorem rowsum_apply (src : FVec Ideal S128x8192 .f32) (h : S128x8192.Reduces [1] S128) (hφ : FKind.Formats .f32)
    (hacc : (0x00000000#32 : BitVec 32) = FKind.add.neutral .f32 hφ) (r : Fin 128) :
    multiReduction (F := Ideal) .add [1] S128 src 0x00000000#32 h hφ hacc (ix1 r) = ∑ j : Fin 8192, src (ix2 r j) := by
  refine (Ideal.multiReduction_add_single src _ h hφ hacc (ix1 r)).trans ?_
  exact Finset.sum_congr rfl fun k _ => congrArg src (lift_row h r k)

/-- A sum along the rows of a column read at its one cell. -/
private theorem colsum_apply (src : FVec Ideal S128x1 .f32) (h : S128x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 128, src (ix2 r u) := by
  refine (Ideal.multiReduction_add_single src _ h hφ hacc (ix1 u)).trans ?_
  exact Finset.sum_congr rfl fun k _ => congrArg src (lift_col h u k)

/-- The mask at `(r, j)` of row tile `t` is the pair mask of sample `128 t + r` against sample `j`. -/
private theorem pay6_at (t : Fin grid0.N) (x1 : Vec Ideal S128x1 .f32) (x3 : Vec Ideal S1x8192 .f32) (d : Fin 8192 → EReal)
    (h1 : ∀ r : Fin 128, x1 (ix2 r (0 : Fin 1)) = d (RankSpec.row (tile t) r))
    (h3 : ∀ j : Fin 8192, x3 (ix2 (0 : Fin 1) j) = d j) (r : Fin 128) (j : Fin 8192) :
    k0_pay6 (F := Ideal) (grid0.coords t) x1 x3 (ix2 r j) = RankSpec.mbit d (RankSpec.row (tile t) r) j := by
  unfold k0_pay6
  simp only [shapeCast_self]
  show IntOp.andi (Ideal.cmp .olt (broadcastTo S128x8192 x1 broadcasts_S128x1_S128x8192 (ix2 r j))
        (broadcastTo S128x8192 x3 broadcasts_S1x8192_S128x8192 (ix2 r j)))
      (IntOp.cmpi .ne
        (broadcastTo S128x8192
          (addi (broadcast S128x1 (Scalar.muli (BitVec.ofNat 32 ((grid0.coords t) 0).val) 128#32))
            (iota .tc S128x1 32 [0] iota_S128x1_d0_w32)) broadcasts_S128x1_S128x8192 (ix2 r j))
        (broadcastTo S128x8192 (iota .tc S1x8192 32 [1] iota_S1x8192_d1_w32) broadcasts_S1x8192_S128x8192 (ix2 r j))) = _
  rw [broadcastTo_col_apply, broadcastTo_1b_ab_apply, broadcastTo_col_apply, broadcastTo_1b_ab_apply, h1, h3]
  show IntOp.andi _ (IntOp.cmpi .ne
        (IntOp.addi (IntOp.muli (BitVec.ofNat 32 ((grid0.coords t) 0).val) 128#32)
          (iota .tc S128x1 32 [0] iota_S128x1_d0_w32 (ix2 r (0 : Fin 1))))
        (iota .tc S1x8192 32 [1] iota_S1x8192_d1_w32 (ix2 (0 : Fin 1) j))) = _
  rw [iota_single_apply, iota_single_apply, coords_val]
  show IntOp.andi _ (IntOp.cmpi .ne
        (IntOp.addi (IntOp.muli (BitVec.ofNat 32 (tile t).val) 128#32) (BitVec.ofNat 32 r.val)) (BitVec.ofNat 32 j.val)) = _
  rw [RankSpec.offd_words_ne]
  rfl

theorem pay7_apply (t : Fin grid0.N) (x0 x1 : Vec Ideal S128x1 .f32) (x2 x3 : Vec Ideal S1x8192 .f32) (e d : Fin 8192 → EReal)
    (h0 : ∀ r : Fin 128, x0 (ix2 r (0 : Fin 1)) = e (RankSpec.row (tile t) r))
    (h1 : ∀ r : Fin 128, x1 (ix2 r (0 : Fin 1)) = d (RankSpec.row (tile t) r))
    (h2 : ∀ j : Fin 8192, x2 (ix2 (0 : Fin 1) j) = e j)
    (h3 : ∀ j : Fin 8192, x3 (ix2 (0 : Fin 1) j) = d j) (y : S1x1.Idx) :
    k0_pay7 (F := Ideal) (grid0.coords t) x0 x1 x2 x3 y = RankSpec.partS e d (tile t) := by
  obtain ⟨u, v, rfl⟩ : ∃ (u v : Fin 1), y = ix2 u v := ⟨y 0, y 1, eq_ix2 y⟩
  unfold k0_pay7
  simp only [shapeCast_self]
  refine (shapeCast_a_1a_apply _ _ u v).trans ?_
  refine (colsum_apply _ _ _ _ v).trans ?_
  unfold RankSpec.partS
  refine Finset.sum_congr rfl fun r _ => ?_
  refine (shapeCast_a_a1_apply _ _ r v).trans ?_
  refine (rowsum_apply _ _ _ _ r).trans ?_
  refine Finset.sum_congr rfl fun j _ => ?_
  show Scalar.select (k0_pay6 (F := Ideal) (grid0.coords t) x1 x3 (ix2 r j))
      (max (broadcastTo S128x8192 x0 broadcasts_S128x1_S128x8192 (ix2 r j)
        - broadcastTo S128x8192 x2 broadcasts_S1x8192_S128x8192 (ix2 r j) + RankSpec.one) RankSpec.zero) RankSpec.zero = _
  rw [pay6_at t x1 x3 d h1 h3, broadcastTo_col_apply, broadcastTo_1b_ab_apply, h0, h2]
  rfl

theorem pay28_apply (t : Fin grid0.N) (x1 : Vec Ideal S128x1 .f32) (x3 : Vec Ideal S1x8192 .f32) (d : Fin 8192 → EReal)
    (h1 : ∀ r : Fin 128, x1 (ix2 r (0 : Fin 1)) = d (RankSpec.row (tile t) r))
    (h3 : ∀ j : Fin 8192, x3 (ix2 (0 : Fin 1) j) = d j) (a : Vec Ideal S1x1 .f32) (y : S1x1.Idx) :
    k0_pay2 (F := Ideal) (k0_pay8 (grid0.coords t) x1 x3) a y = a y + RankSpec.partC d (tile t) := by
  obtain ⟨u, v, rfl⟩ : ∃ (u v : Fin 1), y = ix2 u v := ⟨y 0, y 1, eq_ix2 y⟩
  unfold k0_pay2
  simp only [shapeCast_self]
  show a (ix2 u v) + shapeCast S1x1 _ shapeCasts_S1_S1x1 (ix2 u v) = _
  refine congrArg (a (ix2 u v) + ·) ?_
  refine (shapeCast_a_1a_apply _ _ u v).trans ?_
  refine (colsum_apply _ _ _ _ v).trans ?_
  unfold RankSpec.partC
  refine Finset.sum_congr rfl fun r _ => ?_
  unfold k0_pay8
  refine (shapeCast_a_a1_apply _ _ r v).trans ?_
  refine (rowsum_apply _ _ _ _ r).trans ?_
  refine Finset.sum_congr rfl fun j _ => ?_
  show (((((k0_pay6 (F := Ideal) (grid0.coords t) x1 x3 (ix2 r j)).setWidth 32).toInt : ℝ)) : EReal) = _
  rw [pay6_at t x1 x3 d h1 h3]
  rfl

end Cert.KernelIdeal.RankPay

end
-- ==== Proof.KBlocks.lean ====
/-
  What the region's four input windows hold. The host lines before the region compute the distance of every sample's
  property row from the target (`distK`: the square root of the row sum of squared differences) and lay the energies
  and the distances out twice, as a column [8192, 1] and as a row [1, 8192]. The column windows' block at row tile `t`
  holds rows `128 t + r`; the row windows' block is the whole row.
-/
import proofs.«143509_j40269613367603_1_alg».proof.Proof.Gen.KernelIdeal.Frame
import proofs.«143509_j40269613367603_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.RankBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Every sample's distance from the target, as the host lines compute it. -/
def distK (x1 : FVec Ideal S8192x16 .f32) (x2 : FVec Ideal S16 .f32) : FVec Ideal S8192 .f32 :=
  Host.sqrt (F := Ideal) (Host.reduceAdd (F := Ideal) (mulf (subf x1 (broadcastInDim S8192x16 ![0, 1] bcast_S1x16_S8192x16_0_1 (broadcastInDim S1x16 ![1] bcast_S16_S1x16_1 x2))) (subf x1 (broadcastInDim S8192x16 ![0, 1] bcast_S1x16_S8192x16_0_1 (broadcastInDim S1x16 ![1] bcast_S16_S1x16_1 x2)))) (constant (F := Ideal) S_ .f32 0x00000000#32) reducesTo_S8192x16_S8192_d1 h_S_)

/-- The energies and the distances, by sample, read off the launch memory. -/
def eK (c : Dev nD) : Fin 8192 → EReal := fun i => (m ((c.tc : Thread nD τ).loc main_arg0) : FVec Ideal S8192x1 .f32) (ix2 i (0 : Fin 1))
def dK (c : Dev nD) : Fin 8192 → EReal := fun i =>
  distK (m ((c.tc : Thread nD τ).loc main_arg1)) (m ((c.tc : Thread nD τ).loc main_arg2)) (ix1 i)

/-- The four input blocks at a point, at their literal types. -/
abbrev ecol (c : Dev nD) (t : Fin cfg0.N) : Vec Ideal S128x1 .f32 := iblk m c 0 t
abbrev dcol (c : Dev nD) (t : Fin cfg0.N) : Vec Ideal S128x1 .f32 := iblk m c 1 t
abbrev erow (c : Dev nD) (t : Fin cfg0.N) : Vec Ideal S1x8192 .f32 := iblk m c 2 t
abbrev drow (c : Dev nD) (t : Fin cfg0.N) : Vec Ideal S1x8192 .f32 := iblk m c 3 t

/-! ### The four arrays as the host lines leave them -/

/-- The energies column: the launch array cast to a vector and back to a column. -/
private theorem arr_ecol (c : Dev nD) :
    (V m c main_v7 : S8192x1.Idx → EReal)
      = shapeCast S8192x1 (shapeCast S8192 (m ((c.tc : Thread nD τ).loc main_arg0) : FVec Ideal S8192x1 .f32) shapeCasts_S8192x1_S8192) shapeCasts_S8192_S8192x1 := by
  show StableHlo.after hostOps0 (fun b => m (c, b)) (Proc.devRef .tc main_v7) = _
  after_results
  rfl

/-- The distances column: the distance vector cast to a column. -/
private theorem arr_dcol (c : Dev nD) :
    (V m c main_v8 : S8192x1.Idx → EReal)
      = shapeCast S8192x1 (distK (m ((c.tc : Thread nD τ).loc main_arg1)) (m ((c.tc : Thread nD τ).loc main_arg2))) shapeCasts_S8192_S8192x1 := by
  show StableHlo.after hostOps0 (fun b => m (c, b)) (Proc.devRef .tc main_v8) = _
  after_results
  rfl

/-- The energies row: the energies column transposed. -/
private theorem arr_erow (c : Dev nD) :
    (V m c main_v9 : S1x8192.Idx → EReal)
      = transpose S1x8192 [1, 0] (shapeCast S8192x1 (shapeCast S8192 (m ((c.tc : Thread nD τ).loc main_arg0) : FVec Ideal S8192x1 .f32) shapeCasts_S8192x1_S8192) shapeCasts_S8192_S8192x1) transposes_S8192x1_S1x8192_1_0 := by
  show StableHlo.after hostOps0 (fun b => m (c, b)) (Proc.devRef .tc main_v9) = _
  after_results
  rfl

/-- The distances row: the distances column transposed. -/
private theorem arr_drow (c : Dev nD) :
    (V m c main_v10 : S1x8192.Idx → EReal)
      = transpose S1x8192 [1, 0] (shapeCast S8192x1 (distK (m ((c.tc : Thread nD τ).loc main_arg1)) (m ((c.tc : Thread nD τ).loc main_arg2))) shapeCasts_S8192_S8192x1) transposes_S8192x1_S1x8192_1_0 := by
  show StableHlo.after hostOps0 (fun b => m (c, b)) (Proc.devRef .tc main_v10) = _
  after_results
  rfl

/-! ### The layout operations read at an index -/

/-- A column cast to a vector and back reads, at row `i`, the column at row `i`: position `i * 1 + 0 = i` both ways. -/
private theorem col_vec_col_apply (x : S8192x1.Idx → EReal) (i : Fin 8192) :
    shapeCast S8192x1 (shapeCast S8192 x shapeCasts_S8192x1_S8192) shapeCasts_S8192_S8192x1 (ix2 i (0 : Fin 1)) = x (ix2 i (0 : Fin 1)) := by
  refine (shapeCast_apply _ _ (ix2 i (0 : Fin 1)) (ix1 i) ?_).trans (shapeCast_apply _ _ (ix1 i) (ix2 i (0 : Fin 1)) ?_)
  · rw [Shape.rowMajor_val_two, Shape.rowMajor_val_one]; show i.val = i.val * 1 + 0; omega
  · rw [Shape.rowMajor_val_two, Shape.rowMajor_val_one]; show i.val * 1 + 0 = i.val; omega

/-- A vector cast to a column reads, at row `i`, the vector at `i`. -/
private theorem vec_col_apply (x : S8192.Idx → EReal) (i : Fin 8192) :
    shapeCast S8192x1 x shapeCasts_S8192_S8192x1 (ix2 i (0 : Fin 1)) = x (ix1 i) := by
  refine shapeCast_apply _ _ (ix2 i (0 : Fin 1)) (ix1 i) ?_
  rw [Shape.rowMajor_val_two, Shape.rowMajor_val_one]; show i.val = i.val * 1 + 0; omega

/-- A column transposed reads, at column `j`, the column at row `j`. -/
private theorem col_row_apply (x : S8192x1.Idx → EReal) (j : Fin 8192) :
    transpose S1x8192 [1, 0] x transposes_S8192x1_S1x8192_1_0 (ix2 (0 : Fin 1) j) = x (ix2 j (0 : Fin 1)) :=
  transpose_ix2_apply x transposes_S8192x1_S1x8192_1_0 (0 : Fin 1) j

/-! ### The blocks read off the arrays -/

/-- The column windows' index at point `t` is `(t, 0)`; the row windows' is `(0, 0)`. -/
private theorem idx_col0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
private theorem idx_col1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
private theorem idx_row2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
private theorem idx_row3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row `r` of the energies column's block at tile `t` is row `128 t + r` of the column. -/
private theorem ecol_arr (c : Dev nD) (t : Fin cfg0.N) (r : Fin 128) :
    ecol m c t (ix2 r (0 : Fin 1)) = (V m c main_v7 : S8192x1.Idx → EReal) (ix2 (RankSpec.row (Fin.cast N_0 t) r) (0 : Fin 1)) := by
  unfold ecol iblk
  rw [View.read_apply]
  show V m c main_v7 (((cfg0.win 0).blk t).view.emb (ix2 r (0 : Fin 1))) = V m c main_v7 (ix2 (RankSpec.row (Fin.cast N_0 t) r) (0 : Fin 1))
  congr 1
  funext a
  apply Fin.ext
  have hi := idx_col0 t
  match a with
  | ⟨0, _⟩ => show win0_0.index t 0 * 128 + 1 * r.val = 128 * t.val + r.val; rw [hi.1]; omega
  | ⟨1, _⟩ => show win0_0.index t 1 * 1 + 1 * 0 = 0; rw [hi.2]

/-- Row `r` of the distances column's block at tile `t` is row `128 t + r` of the column. -/
private theorem dcol_arr (c : Dev nD) (t : Fin cfg0.N) (r : Fin 128) :
    dcol m c t (ix2 r (0 : Fin 1)) = (V m c main_v8 : S8192x1.Idx → EReal) (ix2 (RankSpec.row (Fin.cast N_0 t) r) (0 : Fin 1)) := by
  unfold dcol iblk
  rw [View.read_apply]
  show V m c main_v8 (((cfg0.win 1).blk t).view.emb (ix2 r (0 : Fin 1))) = V m c main_v8 (ix2 (RankSpec.row (Fin.cast N_0 t) r) (0 : Fin 1))
  congr 1
  funext a
  apply Fin.ext
  have hi := idx_col1 t
  match a with
  | ⟨0, _⟩ => show win0_1.index t 0 * 128 + 1 * r.val = 128 * t.val + r.val; rw [hi.1]; omega
  | ⟨1, _⟩ => show win0_1.index t 1 * 1 + 1 * 0 = 0; rw [hi.2]

/-- The energies row's block is the whole row. -/
private theorem erow_arr (c : Dev nD) (t : Fin cfg0.N) (j : Fin 8192) :
    erow m c t (ix2 (0 : Fin 1) j) = (V m c main_v9 : S1x8192.Idx → EReal) (ix2 (0 : Fin 1) j) := by
  unfold erow iblk
  rw [View.read_apply]
  show V m c main_v9 (((cfg0.win 2).blk t).view.emb (ix2 (0 : Fin 1) j)) = V m c main_v9 (ix2 (0 : Fin 1) j)
  congr 1
  funext a
  apply Fin.ext
  have hi := idx_row2 t
  match a with
  | ⟨0, _⟩ => show win0_2.index t 0 * 1 + 1 * 0 = 0; rw [hi.1]
  | ⟨1, _⟩ => show win0_2.index t 1 * 8192 + 1 * j.val = j.val; rw [hi.2]; omega

/-- The distances row's block is the whole row. -/
private theorem drow_arr (c : Dev nD) (t : Fin cfg0.N) (j : Fin 8192) :
    drow m c t (ix2 (0 : Fin 1) j) = (V m c main_v10 : S1x8192.Idx → EReal) (ix2 (0 : Fin 1) j) := by
  unfold drow iblk
  rw [View.read_apply]
  show V m c main_v10 (((cfg0.win 3).blk t).view.emb (ix2 (0 : Fin 1) j)) = V m c main_v10 (ix2 (0 : Fin 1) j)
  congr 1
  funext a
  apply Fin.ext
  have hi := idx_row3 t
  match a with
  | ⟨0, _⟩ => show win0_3.index t 0 * 1 + 1 * 0 = 0; rw [hi.1]
  | ⟨1, _⟩ => show win0_3.index t 1 * 8192 + 1 * j.val = j.val; rw [hi.2]; omega

theorem ecol_apply (c : Dev nD) (t : Fin cfg0.N) (r : Fin 128) :
    ecol m c t (ix2 r (0 : Fin 1)) = eK m c (RankSpec.row (Fin.cast N_0 t) r) := by
  rw [ecol_arr, arr_ecol, col_vec_col_apply]
  rfl

theorem dcol_apply (c : Dev nD) (t : Fin cfg0.N) (r : Fin 128) :
    dcol m c t (ix2 r (0 : Fin 1)) = dK m c (RankSpec.row (Fin.cast N_0 t) r) := by
  rw [dcol_arr, arr_dcol, vec_col_apply]
  rfl

theorem erow_apply (c : Dev nD) (t : Fin cfg0.N) (j : Fin 8192) :
    erow m c t (ix2 (0 : Fin 1) j) = eK m c j := by
  rw [erow_arr, arr_erow, col_row_apply, col_vec_col_apply]
  rfl

theorem drow_apply (c : Dev nD) (t : Fin cfg0.N) (j : Fin 8192) :
    drow m c t (ix2 (0 : Fin 1) j) = dK m c j := by
  rw [drow_arr, arr_drow, col_row_apply, vec_col_apply]
  rfl

end Cert.KernelIdeal.RankBlocks

end
-- ==== Proof.KInv.lean ====
/-
  The accumulation across the grid. After row tile `n` the loss cell holds the loss sum over the row tiles `0 … n` and the
  count cell the count over them (induction on the point: the first point starts both from zero, every later point adds
  its tile's share to what the point before left); so at the last point the output block is the loss.
-/
import proofs.«143509_j40269613367603_1_alg».proof.Proof.KPieces
import proofs.«143509_j40269613367603_1_alg».proof.Proof.KPay
import proofs.«143509_j40269613367603_1_alg».proof.Proof.KBlocks

noncomputable section

namespace Cert.KernelIdeal.RankValue

open Idealize.ShloMosaic Idealize.ShloMosaic.TcCoe Idealize.SL.Sem Idealize.ShloMosaic.ValueIdx
open Cert.KernelIdeal Cert.KernelIdeal.Gen
open Cert.KernelIdeal.RankPay Cert.KernelIdeal.RankBlocks

variable (m : (ℓ : Loc nD τ sig) → Buf (Elt Ideal) ℓ)

/-- The first point: both cells start from zero and take the tile's share. -/
private theorem step_A (c : Dev nD) (t : Fin cfg0.N) (h0 : t.val % 64 = 0) (h1 : ¬t.val % 64 = 63) (y : S1x1.Idx) :
    (outsAt0 m c t.val t.isLt).2.1 y = RankSpec.partS (eK m c) (dK m c) (tile t)
      ∧ (outsAt0 m c t.val t.isLt).2.2 y = RankSpec.partC (dK m c) (tile t) := by
  rw [outsAt0_A m c t h0 h1]
  dsimp only
  constructor
  · rw [sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (ecol m c t) (dcol m c t) (erow m c t) (drow m c t), pay1_apply, pay4_apply, zero_add]
    exact pay7_apply t _ _ _ _ (eK m c) (dK m c) (ecol_apply m c t) (dcol_apply m c t) (erow_apply m c t) (drow_apply m c t) y
  · rw [sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (ecol m c t) (dcol m c t) (erow m c t) (drow m c t), pay28_apply t _ _ (dK m c) (dcol_apply m c t) (drow_apply m c t), pay5_apply, zero_add]

/-- A middle point: each cell adds the tile's share to what the point before left. -/
private theorem step_B (c : Dev nD) (t : Fin cfg0.N) (h0 : ¬t.val % 64 = 0) (h1 : ¬t.val % 64 = 63) (y : S1x1.Idx) :
    (outsAt0 m c t.val t.isLt).2.1 y
        = (outsAt0 m c (t.val - 1) (Nat.lt_of_le_of_lt (Nat.sub_le _ _) t.isLt)).2.1 y + RankSpec.partS (eK m c) (dK m c) (tile t)
      ∧ (outsAt0 m c t.val t.isLt).2.2 y
        = (outsAt0 m c (t.val - 1) (Nat.lt_of_le_of_lt (Nat.sub_le _ _) t.isLt)).2.2 y + RankSpec.partC (dK m c) (tile t) := by
  rw [outsAt0_B m c t h0 h1]
  dsimp only
  constructor
  · rw [sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (ecol m c t) (dcol m c t) (erow m c t) (drow m c t) (outsAt0 m c (t.val - 1) (Nat.lt_of_le_of_lt (Nat.sub_le _ _) t.isLt)).2.1 (outsAt0 m c (t.val - 1) (Nat.lt_of_le_of_lt (Nat.sub_le _ _) t.isLt)).2.2, pay1_apply]
    congr 1
    exact pay7_apply t _ _ _ _ (eK m c) (dK m c) (ecol_apply m c t) (dcol_apply m c t) (erow_apply m c t) (drow_apply m c t) y
  · rw [sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (ecol m c t) (dcol m c t) (erow m c t) (drow m c t) (outsAt0 m c (t.val - 1) (Nat.lt_of_le_of_lt (Nat.sub_le _ _) t.isLt)).2.1 (outsAt0 m c (t.val - 1) (Nat.lt_of_le_of_lt (Nat.sub_le _ _) t.isLt)).2.2, pay28_apply t _ _ (dK m c) (dcol_apply m c t) (drow_apply m c t)]

/-- The last point: the cells update as at a middle point, and the output block is the quotient of the updated cells. -/
private theorem step_C (c : Dev nD) (t : Fin cfg0.N) (h0 : ¬t.val % 64 = 0) (h1 : t.val % 64 = 63) (y : S1x1.Idx) :
    (outsAt0 m c t.val t.isLt).1 y
        = Ideal.div ((outsAt0 m c (t.val - 1) (Nat.lt_of_le_of_lt (Nat.sub_le _ _) t.isLt)).2.1 y + RankSpec.partS (eK m c) (dK m c) (tile t))
            (max ((outsAt0 m c (t.val - 1) (Nat.lt_of_le_of_lt (Nat.sub_le _ _) t.isLt)).2.2 y + RankSpec.partC (dK m c) (tile t)) RankSpec.one)
      ∧ (outsAt0 m c t.val t.isLt).2.1 y
        = (outsAt0 m c (t.val - 1) (Nat.lt_of_le_of_lt (Nat.sub_le _ _) t.isLt)).2.1 y + RankSpec.partS (eK m c) (dK m c) (tile t)
      ∧ (outsAt0 m c t.val t.isLt).2.2 y
        = (outsAt0 m c (t.val - 1) (Nat.lt_of_le_of_lt (Nat.sub_le _ _) t.isLt)).2.2 y + RankSpec.partC (dK m c) (tile t) := by
  rw [outsAt0_C m c t h0 h1]
  dsimp only
  refine ⟨?_, ?_, ?_⟩
  · rw [out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (ecol m c t) (dcol m c t) (erow m c t) (drow m c t) (outsAt0 m c (t.val - 1) (Nat.lt_of_le_of_lt (Nat.sub_le _ _) t.isLt)).2.1 (outsAt0 m c (t.val - 1) (Nat.lt_of_le_of_lt (Nat.sub_le _ _) t.isLt)).2.2, pay3_apply, pay1_apply,
      pay28_apply t _ _ (dK m c) (dcol_apply m c t) (drow_apply m c t),
      pay7_apply t _ _ _ _ (eK m c) (dK m c) (ecol_apply m c t) (dcol_apply m c t) (erow_apply m c t) (drow_apply m c t) y]
  · rw [sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (ecol m c t) (dcol m c t) (erow m c t) (drow m c t) (outsAt0 m c (t.val - 1) (Nat.lt_of_le_of_lt (Nat.sub_le _ _) t.isLt)).2.1 (outsAt0 m c (t.val - 1) (Nat.lt_of_le_of_lt (Nat.sub_le _ _) t.isLt)).2.2, pay1_apply]
    congr 1
    exact pay7_apply t _ _ _ _ (eK m c) (dK m c) (ecol_apply m c t) (dcol_apply m c t) (erow_apply m c t) (drow_apply m c t) y
  · rw [sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (ecol m c t) (dcol m c t) (erow m c t) (drow m c t) (outsAt0 m c (t.val - 1) (Nat.lt_of_le_of_lt (Nat.sub_le _ _) t.isLt)).2.1 (outsAt0 m c (t.val - 1) (Nat.lt_of_le_of_lt (Nat.sub_le _ _) t.isLt)).2.2, pay28_apply t _ _ (dK m c) (dcol_apply m c t) (drow_apply m c t)]

/-- After point `n` the two carried cells hold the loss sum and the count over the row tiles up to `n`. -/
theorem cells_eq (c : Dev nD) : ∀ (n : ℕ) (hn : n < cfg0.N) (y : S1x1.Idx),
    (outsAt0 m c n hn).2.1 y = RankSpec.upto (RankSpec.partS (eK m c) (dK m c)) n
      ∧ (outsAt0 m c n hn).2.2 y = RankSpec.upto (RankSpec.partC (dK m c)) n
  | 0, hn, y => by
    have hA := step_A m c ⟨0, hn⟩ (Nat.zero_mod 64) (by show ¬0 % 64 = 63; decide) y
    rw [RankSpec.upto_zero, RankSpec.upto_zero]
    exact hA
  | n + 1, hn, y => by
    have hN : n + 1 < 64 := lt_of_lt_of_eq hn (show cfg0.N = 64 from N_0)
    have h0 : ¬(⟨n + 1, hn⟩ : Fin cfg0.N).val % 64 = 0 := by show ¬(n + 1) % 64 = 0; omega
    have ih := cells_eq c n (Nat.lt_of_succ_lt hn) y
    rw [RankSpec.upto_succ _ n hN, RankSpec.upto_succ _ n hN, ← ih.1, ← ih.2]
    by_cases h1 : (⟨n + 1, hn⟩ : Fin cfg0.N).val % 64 = 63
    · exact (step_C m c ⟨n + 1, hn⟩ h0 h1 y).2
    · exact step_B m c ⟨n + 1, hn⟩ h0 h1 y

/-- The output block at a point `n = 63`: the quotient of the full loss sum by the larger of the full count and one. -/
private theorem out_at (c : Dev nD) (n : ℕ) (hn : n < cfg0.N) (h63 : n = 63) (y : S1x1.Idx) :
    (outsAt0 m c n hn).1 y = RankSpec.loss (eK m c) (dK m c) := by
  have h0 : ¬(⟨n, hn⟩ : Fin cfg0.N).val % 64 = 0 := by show ¬n % 64 = 0; omega
  have h1 : (⟨n, hn⟩ : Fin cfg0.N).val % 64 = 63 := by show n % 64 = 63; omega
  have hC := (step_C m c ⟨n, hn⟩ h0 h1 y).1
  have ih := cells_eq m c ((⟨n, hn⟩ : Fin cfg0.N).val - 1)
    (Nat.lt_of_le_of_lt (Nat.sub_le _ _) (⟨n, hn⟩ : Fin cfg0.N).isLt) y
  rw [ih.1, ih.2] at hC
  refine hC.trans ?_
  subst h63
  unfold RankSpec.loss
  rw [RankSpec.lossSum_eq_parts, RankSpec.count_eq_parts, ← RankSpec.upto_last, ← RankSpec.upto_last,
    RankSpec.upto_succ _ 62 (by decide), RankSpec.upto_succ _ 62 (by decide)]
  rfl

/-- At the last point the output block holds the loss. -/
theorem out_last (c : Dev nD) (h : 63 < cfg0.N) (y : S1x1.Idx) :
    (outsAt0 m c 63 h).1 y = RankSpec.loss (eK m c) (dK m c) :=
  out_at m c 63 h rfl y

end Cert.KernelIdeal.RankValue

end
-- ==== Proof.KRun.lean ====
/-
  The kernel program's run, read: the output window is written back once, after the last point, and its one block is
  the whole [1, 1] array, so that array ends holding the loss; the host line after the region reshapes it to [1].
-/
import proofs.«143509_j40269613367603_1_alg».proof.Proof.KInv
import Idealize.ShloMosaic.Lib.StableHlo.Run

noncomputable section

namespace Cert.KernelIdeal.RankValue

open Idealize.ShloMosaic Idealize.ShloMosaic.TcCoe Idealize.SL.Sem Idealize.ShloMosaic.ValueIdx
open Cert.KernelIdeal Cert.KernelIdeal.Gen
open Cert.KernelIdeal.RankPay Cert.KernelIdeal.RankBlocks
open Idealize.ShloMosaic.Pipeline (Dat)

variable (m : (ℓ : Loc nD τ sig) → Buf (Elt Ideal) ℓ)

/-- The loss as contents of the [1, 1] result array of the region. -/
abbrev lossArr (c : Dev nD) : FVec Ideal S1x1 .f32 := fun _ => RankSpec.loss (eK m c) (dK m c)

/-- The last grid point. -/
abbrev tLast : Fin cfg0.N := ⟨63, by rw [show cfg0.N = 64 from N_0]; decide⟩

/-- The one write-back, after the last point, writes the loss: the output block there is the loss at every index. -/
theorem flushed_eq (c : Dev nD) (t : Fin cfg0.N) (hf : (cfg0.win 4).flush t = true) :
    (dats m 0 c).flushed 4 t = ((cfg0.win 4).blk t).view.read (Elt Ideal) (lossArr m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after0_4]
  have hz' : (fun a => win0_4.index tLast a * main_v11.ty.shape.size a) = fun _ => 0 :=
    funext fun a => by fin_cases a <;> decide
  refine Eq.trans ?_
    (Memref.read_access_unit_zero (Elt Ideal) main_v11 hz' (fun a => by rw [congrFun hz' a]; simp) (lossArr m c)).symm
  funext y
  exact out_last m c _ _

set_option maxRecDepth 65536 in
/-- The region's result array ends holding the loss: the last point's block covers it. -/
theorem final_out (c : Dev nD) : (dats m 0 c).arrAt 4 cfg0.N = lossArr m c :=
  (dats m 0 c).arrAt_eq_of_cover 4 (lossArr m c) (flushed_eq m c) fun i =>
    ⟨tLast, (flush0_4 tLast).mpr rfl, by
      show i ∈ ((View.whole main_v11).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-- The host line after the region reshapes the [1, 1] result to [1]: the program's result is the loss. -/
theorem tail_eq (c : Dev nD) :
    Pipeline.afterTail₀ cfgs (dats m) 0 (V0 m) [hostOps1] c main_v12 = (fun _ => RankSpec.loss (eK m c) (dK m c)) := by
  unfold Pipeline.afterTail₀
  show StableHlo.after hostOps1 _ (Proc.devRef .tc main_v12) = _
  after_results
  rw [Pipeline.withArrays_arr spec0 launch0.win.arr_inj c _ _ 4, final_out]
  rfl

/-- The run: the program's result at the loss, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v12) = (fun _ => RankSpec.loss (eK m c) (dK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RankValue

end
-- ==== Proof.RefValue.lean ====
/-
  The reference, read at the ideal values: its result is the loss of the energies (column 0 of the first argument) and
  of the distances its `norm` computes. The double sum over [8192, 8192] is the sum over pairs; the count is an integer
  sum of the mask bits, at most 8192 · 8192 < 2 ^ 31, so the word holds it and its conversion is the count.
-/
import proofs.«143509_j40269613367603_1_alg».proof.Proof.Gen.ReferenceIdeal.Read
import proofs.«143509_j40269613367603_1_alg».proof.Proof.Spec
import Idealize.ShloMosaic.Lib.ValueIdx
import Idealize.ShloMosaic.Lib.WordSum
import Idealize.ShloMosaic.PureOps.Ideal.Laws

noncomputable section

namespace Cert.ReferenceIdeal.RankRef

open Idealize.ShloMosaic Idealize.ShloMosaic.TcCoe Idealize.SL.Sem Idealize.ShloMosaic.ValueIdx
open Cert.ReferenceIdeal Cert.ReferenceIdeal.Gen Cert.ReferenceIdeal.Read

/-- The energies and the distances, by sample. -/
def eR (x0 : FVec Ideal S8192x1 .f32) : Fin 8192 → EReal := fun i => x0 (ix2 i (0 : Fin 1))
def dR (x1 : FVec Ideal S8192x16 .f32) (x2 : FVec Ideal S16 .f32) : Fin 8192 → EReal := fun i =>
  val_main_v3 (F := Ideal) x1 x2 (ix1 i)

/-! ### The broadcast chains' indices at the pair (a, b) -/

theorem idx_e_row (a b : Fin 8192) :
    idx_main_v4 (idx_main_v17 (idx_main_v19 (ix2 a b))) = ix2 a (0 : Fin 1) :=
  funext fun d => match d with
    | ⟨0, _⟩ => Fin.ext (Nat.div_one _)
    | ⟨1, _⟩ => rfl

theorem idx_e_col (a b : Fin 8192) :
    idx_main_v4 (idx_main_v18 (idx_main_v20 (ix2 a b))) = ix2 b (0 : Fin 1) :=
  funext fun d => match d with
    | ⟨0, _⟩ => Fin.ext (Nat.div_one _)
    | ⟨1, _⟩ => rfl

theorem idx_d_row (a b : Fin 8192) : idx_main_v5 (idx_main_v7 (ix2 a b)) = ix1 a :=
  funext fun d => match d with
    | ⟨0, _⟩ => rfl

theorem idx_d_col (a b : Fin 8192) : idx_main_v6 (idx_main_v8 (ix2 a b)) = ix1 b :=
  funext fun d => match d with
    | ⟨0, _⟩ => rfl

/-! ### The stages at the pair (a, b) -/

theorem e_row_at (x0 : FVec Ideal S8192x1 .f32) (a b : Fin 8192) :
    val_main_v19 (F := Ideal) x0 (ix2 a b) = eR x0 a := by
  rw [val_main_v19_apply, val_main_v17_apply, val_main_v4_apply, idx_e_row]; rfl

theorem e_col_at (x0 : FVec Ideal S8192x1 .f32) (a b : Fin 8192) :
    val_main_v20 (F := Ideal) x0 (ix2 a b) = eR x0 b := by
  rw [val_main_v20_apply, val_main_v18_apply, val_main_v4_apply, idx_e_col]; rfl

theorem d_row_at (x1 : FVec Ideal S8192x16 .f32) (x2 : FVec Ideal S16 .f32) (a b : Fin 8192) :
    val_main_v7 (F := Ideal) x1 x2 (ix2 a b) = dR x1 x2 a := by
  rw [val_main_v7_apply, val_main_v5_apply, idx_d_row]; rfl

theorem d_col_at (x1 : FVec Ideal S8192x16 .f32) (x2 : FVec Ideal S16 .f32) (a b : Fin 8192) :
    val_main_v8 (F := Ideal) x1 x2 (ix2 a b) = dR x1 x2 b := by
  rw [val_main_v8_apply, val_main_v6_apply, idx_d_col]; rfl

/-- The mask bit of the pair. -/
theorem mask_at (x1 : FVec Ideal S8192x16 .f32) (x2 : FVec Ideal S16 .f32) (a b : Fin 8192) :
    val_main_v16 (F := Ideal) x1 x2 (ix2 a b) = RankSpec.mbit (dR x1 x2) a b := by
  rw [val_main_v16_apply, val_main_v9_apply, d_row_at, d_col_at, val_main_v15_apply, val_main_v14_apply,
    val_main_v13_apply, val_main_v10_apply, val_main_v11_apply, val_main_v12_apply, val_main_c_apply]
  exact congrArg (IntOp.andi _) (RankSpec.offd_words_not_eq a b)

/-- The hinge of the pair. -/
theorem hinge_at (x0 : FVec Ideal S8192x1 .f32) (a b : Fin 8192) :
    val_main_v24 (F := Ideal) x0 (ix2 a b) = RankSpec.hinge (eR x0) a b := by
  rw [val_main_v24_apply, val_main_v23_apply, val_main_v21_apply, e_row_at, e_col_at, val_main_v22_apply,
    val_main_cst_apply, val_main_call1_v0_apply, val_main_call1_cst_apply]
  rfl

/-- The selected term of the pair. -/
theorem term_at (x0 : FVec Ideal S8192x1 .f32) (x1 : FVec Ideal S8192x16 .f32) (x2 : FVec Ideal S16 .f32)
    (a b : Fin 8192) :
    val_main_v25 (F := Ideal) x0 x1 x2 (ix2 a b) = RankSpec.term (eR x0) (dR x1 x2) a b := by
  rw [val_main_v25_apply, mask_at, hinge_at, val_main_call2_v1_apply, val_main_call2_v0_apply, val_main_cst_0_apply]
  rfl

/-! ### The count word -/

/-- A fold of word addition from zero over a finite set is the sum of the words. -/
theorem fold_addi_eq_sum {ι : Type*} (S : Finset ι) (x : ι → BitVec 32) :
    S.fold IntOp.addi 0#32 x = ∑ k ∈ S, x k := by
  induction S using Finset.cons_induction with
  | empty => rfl
  | cons a S ha ih => rw [Finset.fold_cons, Finset.sum_cons, ih]; rfl

/-- The integer reduction over both axes is the sum of the widened mask bits over all pairs. -/
theorem count_word (x1 : FVec Ideal S8192x16 .f32) (x2 : FVec Ideal S16 .f32) (j : S_.Idx) :
    val_main_v28 (F := Ideal) x1 x2 j
      = ∑ k : S8192x8192.Idx, (RankSpec.mbit (dR x1 x2) (k 0) (k 1)).setWidth 32 := by
  unfold val_main_v28
  rw [Host.reduce_eq_fold, Finset.filter_true_of_mem (fun i _ => funext fun a => a.elim0), val_main_c_2_apply,
    fold_addi_eq_sum]
  refine Finset.sum_congr rfl fun k _ => ?_
  obtain ⟨a, b, rfl⟩ : ∃ a b, k = ix2 a b := ⟨k 0, k 1, eq_ix2 k⟩
  rw [val_main_v27_apply, mask_at]

/-- There are 8192 · 8192 = 2 ^ 26 pairs. -/
theorem card_pairs : Fintype.card S8192x8192.Idx < 2 ^ 31 := by
  rw [Fintype.card_congr (idxEquiv2 (n0 := 8192) (n1 := 8192)), Fintype.card_prod, Fintype.card_fin]
  norm_num

/-- The reference's result is the loss. -/
theorem ref_eq (x0 : FVec Ideal S8192x1 .f32) (x1 : FVec Ideal S8192x16 .f32) (x2 : FVec Ideal S16 .f32) :
    val_main_v32 (F := Ideal) x0 x1 x2 = fun _ => RankSpec.loss (eR x0) (dR x1 x2) := by
  funext i
  rw [val_main_v32_apply, val_main_v31_apply, Ideal.hostDivf_def, val_main_v30_apply, Ideal.maximumf_def,
    val_main_v26_apply, val_main_cst_1_apply, Ideal.ofBits_def, Ideal.ofBits_zero_f32, zero_add, sum_idx2,
    val_main_v29_apply, count_word, val_main_cst_3_apply]
  unfold RankSpec.loss RankSpec.lossSum RankSpec.count
  refine congrArg₂ Ideal.div ?_ (congrArg₂ max ?_ rfl)
  · exact Finset.sum_congr rfl fun a _ => Finset.sum_congr rfl fun b _ => term_at x0 x1 x2 a b
  · show ((((∑ k : S8192x8192.Idx, (RankSpec.mbit (dR x1 x2) (k 0) (k 1)).setWidth 32 : BitVec 32).toInt : ℝ)) : EReal) = _
    rw [RankSpec.sitofp_sum_bits (fun k : S8192x8192.Idx => RankSpec.mbit (dR x1 x2) (k 0) (k 1)) card_pairs, sum_idx2]
    rfl

end Cert.ReferenceIdeal.RankRef

end
-- ==== Proof.lean ====
/-
  The certificate of the pairwise ranking loss. Both programs compute, from the energies `e` (column 0 of the first
  argument) and the distances `d i = ‖property_values i − property_targets‖₂`,

      loss = (∑ i, ∑ j, [d i < d j ∧ i ≠ j] · max (e i − e j + 1) 0) / max (#{(i, j) : d i < d j ∧ i ≠ j}) 1.

  The kernel walks the 64 row tiles of 128 samples, adds each tile's share of the two sums into two carried cells that the
  first point resets, and divides at the last point; the reference sums over all pairs at once and counts with an integer
  sum. Over the extended reals addition is commutative and associative, so the tiled sums are the whole sums; the integer
  count stays below 2 ^ 31, so its conversion is the count. The distances are computed by the same host lines in both
  programs. The frames of the two kernel programs are the generated ones; the reference's frame is its run with the result
  dropped; the ideal pass rewrote nothing.
-/
import proofs.«143509_j40269613367603_1_alg».proof.Defs
import proofs.«143509_j40269613367603_1_alg».proof.Proof.Gen.Kernel
import proofs.«143509_j40269613367603_1_alg».proof.Proof.Gen.Kernel.Frame
import proofs.«143509_j40269613367603_1_alg».proof.Proof.Gen.KernelIdeal
import proofs.«143509_j40269613367603_1_alg».proof.Proof.Gen.KernelIdeal.Frame
import proofs.«143509_j40269613367603_1_alg».proof.Proof.Gen.ReferenceIdeal
import proofs.«143509_j40269613367603_1_alg».proof.Proof.Gen.ReferenceIdeal.Run
import proofs.«143509_j40269613367603_1_alg».proof.Proof.Gen.ReferenceIdeal.Read
import proofs.«143509_j40269613367603_1_alg».proof.Proof.Gen.Pre_finite_inputs
import proofs.«143509_j40269613367603_1_alg».proof.Proof.KRun
import proofs.«143509_j40269613367603_1_alg».proof.Proof.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two programs compute the distances by the same host lines: the square root of the row sums of the squared
    differences from the broadcast target. -/
theorem dist_eq (x1 : FVec Ideal Cert.ReferenceIdeal.S8192x16 .f32) (x2 : FVec Ideal Cert.ReferenceIdeal.S16 .f32) :
    Cert.ReferenceIdeal.RankRef.dR x1 x2 = fun i => Cert.KernelIdeal.RankBlocks.distK x1 x2 (ix1 i) := rfl

/-- At the ideal values both programs end at the loss of the same energies and distances. -/
theorem algebraic : Cert.algebraic_KernelIdeal_ReferenceIdeal := by
  intro m ρ m' ρ' _ hagree
  refine ⟨fun c => fun _ => Cert.RankSpec.loss (Cert.KernelIdeal.RankBlocks.eK m c) (Cert.KernelIdeal.RankBlocks.dK m c),
    Cert.KernelIdeal.RankValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq (F := Ideal) _ _ _).trans ?_
  rw [Cert.ReferenceIdeal.RankRef.ref_eq, dist_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
